-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x768 : Shape := ⟨2, ![32768, 768]⟩
abbrev S64x768 : Shape := ⟨2, ![64, 768]⟩
abbrev S64 : Shape := ⟨1, ![64]⟩
abbrev S_ : Shape := ⟨0, ![]⟩

class Facts : Prop where
  bcast_S_S32768x768 : S_.BroadcastsInDim S32768x768 (![] : Fin 0 → Fin S32768x768.rank)
  reducesTo_S32768x768_S_d0_1 : S32768x768.ReducesTo [0, 1] S_
  h_S_ : 0 < S_.numel
  bcast_S_S64x768 : S_.BroadcastsInDim S64x768 (![] : Fin 0 → Fin S64x768.rank)
  reducesTo_S64x768_S_d0_1 : S64x768.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S32768x768 .f32) (main_arg1 : FVec F S64x768 .f32) (main_arg2 : FVec F S64 .f32) : IVec S_ 1 :=
  let main_v0 : FVec F S32768x768 .f32 := Host.absf main_arg0
  let main_cst : FVec F S_ .f32 := constant S_ .f32 0x7F800000#32
  let main_v1 : FVec F S32768x768 .f32 := broadcastInDim S32768x768 ![] bcast_S_S32768x768 main_cst
  let main_v2 : IVec S32768x768 1 := cmpf .olt main_v0 main_v1
  let main_c : IVec S_ 1 := constantI S_ 1 1#1
  let main_v3 : IVec S_ 1 := (fun x v => Host.reduce IntOp.andi x v reducesTo_S32768x768_S_d0_1 h_S_) main_v2 main_c
  let main_v4 : FVec F S64x768 .f32 := Host.absf main_arg1
  let main_cst_0 : FVec F S_ .f32 := constant S_ .f32 0x7F800000#32
  let main_v5 : FVec F S64x768 .f32 := broadcastInDim S64x768 ![] bcast_S_S64x768 main_cst_0
  let main_v6 : IVec S64x768 1 := cmpf .olt main_v4 main_v5
  let main_c_1 : IVec S_ 1 := constantI S_ 1 1#1
  let main_v7 : IVec S_ 1 := (fun x v => Host.reduce IntOp.andi x v reducesTo_S64x768_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S32768x768 : Shape := ⟨2, ![32768, 768]⟩
abbrev S64x768 : Shape := ⟨2, ![64, 768]⟩
abbrev S64 : Shape := ⟨1, ![64]⟩
abbrev S64x1 : Shape := ⟨2, ![64, 1]⟩
abbrev S64x32768 : Shape := ⟨2, ![64, 32768]⟩
abbrev S4096x768 : Shape := ⟨2, ![4096, 768]⟩
abbrev S64x4096 : Shape := ⟨2, ![64, 4096]⟩
abbrev S4096 : Shape := ⟨1, ![4096]⟩
abbrev S1x4096 : Shape := ⟨2, ![1, 4096]⟩
abbrev S32768x64 : Shape := ⟨2, ![32768, 64]⟩

abbrev nBuf : Space → Nat
  | .hbm => 8
  | .vmem => 8
  | .smem => 0
  | _ => 0

abbrev bufTy : (tb : Table) → Fin (tcTables nBuf tb) → BufTy
  | .hbm, ⟨0, _⟩ => ⟨S32768x768, .f32⟩
  | .hbm, ⟨1, _⟩ => ⟨S64x768, .f32⟩
  | .hbm, ⟨2, _⟩ => ⟨S64, .f32⟩
  | .hbm, ⟨3, _⟩ => ⟨S64x1, .f32⟩
  | .hbm, ⟨4, _⟩ => ⟨S64x32768, .f32⟩
  | .hbm, ⟨5, _⟩ => ⟨S64x32768, .f32⟩
  | .hbm, ⟨6, _⟩ => ⟨S32768x64, .f32⟩
  | .hbm, ⟨7, _⟩ => ⟨S32768x64, .f32⟩
  | .local _ .vmem, ⟨0, _⟩ => ⟨S4096x768, .f32⟩
  | .local _ .vmem, ⟨1, _⟩ => ⟨S4096x768, .f32⟩
  | .local _ .vmem, ⟨2, _⟩ => ⟨S64x768, .f32⟩
  | .local _ .vmem, ⟨3, _⟩ => ⟨S64x1, .f32⟩
  | .local _ .vmem, ⟨4, _⟩ => ⟨S64x4096, .f32⟩
  | .local _ .vmem, ⟨5, _⟩ => ⟨S64x4096, .f32⟩
  | .local _ .vmem, ⟨6, _⟩ => ⟨S64x4096, .f32⟩
  | .local _ .vmem, ⟨7, _⟩ => ⟨S64x4096, .f32⟩
  | _, _ => ⟨S32768x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S64x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S64_S64x1 : S64.ShapeCasts S64x1
  inb_S4096x768_S4096x768_0_0 : ∀ a, (![0, 0] : Fin 2 → Nat) a + S4096x768.size a ≤ S4096x768.size a
  h_S4096x768 : 0 < S4096x768.numel
  inb_S64x768_S64x768_0_0 : ∀ a, (![0, 0] : Fin 2 → Nat) a + S64x768.size a ≤ S64x768.size a
  h_S64x768 : 0 < S64x768.numel
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x4096 : S64x1.Broadcasts S64x4096
  inb_S64x4096_S64x4096_0_0 : ∀ a, (![0, 0] : Fin 2 → Nat) a + S64x4096.size a ≤ S64x4096.size a
  h_S64x4096 : 0 < S64x4096.numel
  reduces_S64x4096_S4096 : S64x4096.Reduces [0] S4096
  shapeCasts_S4096_S1x4096 : S4096.ShapeCasts S1x4096
  broadcasts_S1x4096_S64x4096 : S1x4096.Broadcasts S64x4096
  transposes_S64x32768_S32768x64_1_0 : S64x32768.Transposes [1, 0] S32768x64
  dot_S64x768_S4096x768_S64x4096_1_1_0_0_n_n_wf : DotDims.WF S64x768 S4096x768 S64x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x768.size a ≤ S32768x768.size a
  hwx0_0 : ∀ i : grid0.Coords, EltTy.bits .f32 = 32 ∨ (Rect.block (s := S32768x768) S4096x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x768.size a ≤ S64x768.size a
  hwx0_1 : ∀ i : grid0.Coords, EltTy.bits .f32 = 32 ∨ (Rect.block (s := S64x768) S64x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x1.size a ≤ S64x1.size a
  hwx0_2 : ∀ i : grid0.Coords, EltTy.bits .f32 = 32 ∨ (Rect.block (s := S64x1) S64x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x4096.size a ≤ S64x32768.size a
  hwx0_3 : ∀ i : grid0.Coords, EltTy.bits .f32 = 32 ∨ (Rect.block (s := S64x32768) S64x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x4096.size a ≤ S64x32768.size a
  hwx0_4 : ∀ i : grid0.Coords, EltTy.bits .f32 = 32 ∨ (Rect.block (s := S64x32768) S64x4096.size (cc0_transform_4 i) (hinb0_4 i)).WholeWords (EltTy.packing .f32)

variable [Facts₀]

def dot_S64x768_S4096x768_S64x4096_1_1_0_0_n_n : DotDims S64x768 S4096x768 S64x4096 where
  lhsContracting := [1]
  rhsContracting := [1]
  lhsNonContracting := [0]
  rhsNonContracting := [0]
  lhsBatch := []
  rhsBatch := []
  wf := dot_S64x768_S4096x768_S64x4096_1_1_0_0_n_n_wf

abbrev win0_0 : Pipeline.Window sig grid0 :=
  Pipeline.Window.ofSpec (Memref.whole main_arg0) S4096x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S64x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1_0) S64x4096.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_1) S64x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32768x768 : Shape := ⟨2, ![32768, 768]⟩
abbrev S64x768 : Shape := ⟨2, ![64, 768]⟩
abbrev S64 : Shape := ⟨1, ![64]⟩
abbrev S768x64 : Shape := ⟨2, ![768, 64]⟩
abbrev S32768x64 : Shape := ⟨2, ![32768, 64]⟩
abbrev S1x64 : Shape := ⟨2, ![1, 64]⟩
abbrev S_ : Shape := ⟨0, ![]⟩
abbrev S32768 : Shape := ⟨1, ![32768]⟩
abbrev S32768x1 : Shape := ⟨2, ![32768, 1]⟩

abbrev nBuf : Space → Nat
  | .hbm => 22
  | .vmem => 0
  | .smem => 0
  | _ => 0

abbrev bufTy : (tb : Table) → Fin (tcTables nBuf tb) → BufTy
  | .hbm, ⟨0, _⟩ => ⟨S32768x768, .f32⟩
  | .hbm, ⟨1, _⟩ => ⟨S64x768, .f32⟩
  | .hbm, ⟨2, _⟩ => ⟨S64, .f32⟩
  | .hbm, ⟨3, _⟩ => ⟨S768x64, .f32⟩
  | .hbm, ⟨4, _⟩ => ⟨S32768x64, .f32⟩
  | .hbm, ⟨5, _⟩ => ⟨S1x64, .f32⟩
  | .hbm, ⟨6, _⟩ => ⟨S32768x64, .f32⟩
  | .hbm, ⟨7, _⟩ => ⟨S32768x64, .f32⟩
  | .hbm, ⟨8, _⟩ => ⟨S_, .f32⟩
  | .hbm, ⟨9, _⟩ => ⟨S32768, .f32⟩
  | .hbm, ⟨10, _⟩ => ⟨S_, .f32⟩
  | .hbm, ⟨11, _⟩ => ⟨S32768, .f32⟩
  | .hbm, ⟨12, _⟩ => ⟨S32768, .f32⟩
  | .hbm, ⟨13, _⟩ => ⟨S32768x1, .f32⟩
  | .hbm, ⟨14, _⟩ => ⟨S32768x64, .f32⟩
  | .hbm, ⟨15, _⟩ => ⟨S32768x64, .f32⟩
  | .hbm, ⟨16, _⟩ => ⟨S32768x64, .f32⟩
  | .hbm, ⟨17, _⟩ => ⟨S_, .f32⟩
  | .hbm, ⟨18, _⟩ => ⟨S32768, .f32⟩
  | .hbm, ⟨19, _⟩ => ⟨S32768x1, .f32⟩
  | .hbm, ⟨20, _⟩ => ⟨S32768x64, .f32⟩
  | .hbm, ⟨21, _⟩ => ⟨S32768x64, .f32⟩
  | _, _ => ⟨S32768x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  transposes_S64x768_S768x64_1_0 : S64x768.Transposes [1, 0] S768x64
  bcast_S64_S1x64_1 : S64.BroadcastsInDim S1x64 (![1] : Fin 1 → Fin S1x64.rank)
  bcast_S1x64_S32768x64_0_1 : S1x64.BroadcastsInDim S32768x64 (![0, 1] : Fin 2 → Fin S32768x64.rank)
  reducesTo_S32768x64_S32768_d1 : S32768x64.ReducesTo [1] S32768
  h_S_ : 0 < S_.numel
  bcast_S_S32768 : S_.BroadcastsInDim S32768 (![] : Fin 0 → Fin S32768.rank)
  bcast_S32768_S32768x1_0 : S32768.BroadcastsInDim S32768x1 (![0] : Fin 1 → Fin S32768x1.rank)
  bcast_S32768x1_S32768x64_0_1 : S32768x1.BroadcastsInDim S32768x64 (![0, 1] : Fin 2 → Fin S32768x64.rank)
  dot_S32768x768_S768x64_S32768x64_1_0_0_1_n_n_wf : DotDims.WF S32768x768 S768x64 S32768x64 [1] [0] [0] [1] [] []

variable [Facts₀]

def dot_S32768x768_S768x64_S32768x64_1_0_0_1_n_n : DotDims S32768x768 S768x64 S32768x64 where
  lhsContracting := [1]
  rhsContracting := [0]
  lhsNonContracting := [0]
  rhsNonContracting := [1]
  lhsBatch := []
  rhsBatch := []
  wf := dot_S32768x768_S768x64_S32768x64_1_0_0_1_n_n_wf

class Facts : Prop extends Facts₀ where

variable [Facts]
-- ==== Proof.LibColumnSoftmax.lean ====
/-
  Reductions DOWN THE COLUMNS of an `[a, b]` matrix (over axis 0), kept as a row and spread back over the rows, read
  at one entry at the ideal values; and the softmax of each column built from them.

  For a matrix `v` and a column `c`:
  * the maximum over axis 0 at `c` is the fold of `max`, from the accumulator's value, over the entries `v (k, c)`;
  * the sum over axis 0 at `c` is `∑ k, v (k, c)`;
  * a length-`b` vector cast to the one-row matrix `[1, b]` and broadcast to `[a, b]` reads, at `(p, c)`, the
    vector at `c` — so a column statistic spread back over the matrix is the same number in every row;
  * hence `exp (v - max) / sum (exp (v - max))`, all taken down the columns, is at `(e, c)` the softmax of the
    column `k ↦ v (k, c)` at `e`.
  Generic in the extents `a`, `b`.
-/
import Idealize.ShloMosaic.PureOps.Ideal.Laws
import Idealize.ShloMosaic.Lib.Pipeline.Value
import Idealize.ShloMosaic.Lib.ValueIdx
import Idealize.ShloMosaic.Lib.ValueLayout

noncomputable section

namespace Cert.LibColumnSoftmax

open Idealize.ShloMosaic Idealize.ShloMosaic.ValueIdx
open scoped BigOperators

variable {a b : ℕ}

/-- The softmax of a finite family of extended reals, the maximum folded from `init`:
    `exp (l e - M) / ∑ e', exp (l e' - M)` with `M = max (init, l 0, l 1, …)`. -/
def softmaxFrom (init : EReal) (l : Fin a → EReal) (e : Fin a) : EReal :=
  Ideal.div (Ideal.exp (l e - (Finset.univ : Finset (Fin a)).fold max init l))
    (∑ e' : Fin a, Ideal.exp (l e' - (Finset.univ : Finset (Fin a)).fold max init l))

/-- Taking `max` once more with the value a fold of `max` started from changes nothing. -/
theorem max_fold_max_init {ι : Type} (s : Finset ι) (init : EReal) (f : ι → EReal) :
    max init (s.fold max init f) = s.fold max init f :=
  max_eq_right ((Finset.le_fold_max init).2 (Or.inl le_rfl))

/-- A length-`b` vector cast to the one-row matrix reads, at `(u, c)`, the vector at `c`. -/
theorem shapeCast_row_apply {α : Type} (v : (⟨1, ![b]⟩ : Shape).Idx → α)
    (h : (⟨1, ![b]⟩ : Shape).ShapeCasts ⟨2, ![1, b]⟩) (u : Fin 1) (c : Fin b) :
    shapeCast ⟨2, ![1, b]⟩ v h (ix2 u c) = v (ix1 c) :=
  shapeCast_apply v h (ix2 u c) (ix1 c) (by
    rw [Shape.rowMajor_val_one, Shape.rowMajor_val_two]
    show c.val = u.val * b + c.val
    have hu : u.val = 0 := by have := u.isLt; omega
    rw [hu, Nat.zero_mul, Nat.zero_add])

/-- The row spread back over `a` rows reads, at `(p, c)`, the vector at `c`. -/
theorem rowBroadcast_apply {α : Type} (v : (⟨1, ![b]⟩ : Shape).Idx → α)
    (hc : (⟨1, ![b]⟩ : Shape).ShapeCasts ⟨2, ![1, b]⟩) (hb : (⟨2, ![1, b]⟩ : Shape).Broadcasts ⟨2, ![a, b]⟩)
    (p : Fin a) (c : Fin b) :
    broadcastTo ⟨2, ![a, b]⟩ (shapeCast ⟨2, ![1, b]⟩ v hc) hb (ix2 p c) = v (ix1 c) :=
  (broadcastTo_1b_ab_apply _ hb p c).trans (shapeCast_row_apply v hc 0 c)

/-- The index a reduction over axis 0 reads for column `c` at coordinate `k` is `(k, c)`. -/
theorem lift_axis0 (h : (⟨2, ![a, b]⟩ : Shape).Reduces [0] ⟨1, ![b]⟩) (c : Fin b) (k : Fin a) :
    h.lift (ix1 c) k = ix2 k c :=
  funext fun d => Fin.ext (by match d with | ⟨0, _⟩ => rfl | ⟨1, _⟩ => rfl)

/-- A one-column matrix `[a, 1]` spread over `b` columns reads, at `(p, c)`, the column's entry in row `p`. -/
theorem colBroadcast_apply {α : Type} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

variable {φ : FTy}

/-- A float maximum over axis 0, at column `c`: the fold of `max` from the accumulator's value over the column. -/
theorem colMax_apply (v : FVec Ideal ⟨2, ![a, b]⟩ φ) (acc : BitVec φ.bits)
    (h : (⟨2, ![a, b]⟩ : Shape).Reduces [0] ⟨1, ![b]⟩) (hφ : FKind.Formats φ)
    (hacc : acc = FKind.maximumf.neutral φ hφ) (c : Fin b) :
    multiReduction .maximumf [0] ⟨1, ![b]⟩ v acc h hφ hacc (ix1 c)
      = (Finset.univ : Finset (Fin a)).fold max (Ideal.ofBits φ acc) (fun k => v (ix2 k c)) := by
  refine (Ideal.multiReduction_maximumf_single v acc h hφ hacc (ix1 c)).trans ?_
  show (Finset.univ : Finset (Fin a)).fold max (Ideal.ofBits φ acc) (fun k => v (h.lift (ix1 c) k)) = _
  exact congrArg (fun g : Fin a → EReal => (Finset.univ : Finset (Fin a)).fold max (Ideal.ofBits φ acc) g)
    (funext fun k => congrArg v (lift_axis0 h c k))

/-- A float sum over axis 0, at column `c`: the sum of the column. -/
theorem colSum_apply (v : FVec Ideal ⟨2, ![a, b]⟩ φ) (acc : BitVec φ.bits)
    (h : (⟨2, ![a, b]⟩ : Shape).Reduces [0] ⟨1, ![b]⟩) (hφ : FKind.Formats φ)
    (hacc : acc = FKind.add.neutral φ hφ) (c : Fin b) :
    multiReduction .add [0] ⟨1, ![b]⟩ v acc h hφ hacc (ix1 c) = ∑ k : Fin a, v (ix2 k c) := by
  refine (Ideal.multiReduction_add_single v acc h hφ hacc (ix1 c)).trans ?_
  show ∑ k : Fin a, v (h.lift (ix1 c) k) = _
  exact Finset.sum_congr rfl fun k _ => congrArg v (lift_axis0 h c k)

/-- THE COLUMN SOFTMAX: the maximum down each column (from the word `m`), spread back and subtracted, the
    exponential, its sum down each column (from the word `z`), spread back, the quotient — at `(e, c)` the softmax of
    column `c` at `e`. -/
theorem colSoftmax_apply (v : FVec Ideal ⟨2, ![a, b]⟩ .f32) (m z : BitVec 32)
    (hr : (⟨2, ![a, b]⟩ : Shape).Reduces [0] ⟨1, ![b]⟩)
    (hc : (⟨1, ![b]⟩ : Shape).ShapeCasts ⟨2, ![1, b]⟩) (hb : (⟨2, ![1, b]⟩ : Shape).Broadcasts ⟨2, ![a, b]⟩)
    (hφ : FKind.Formats .f32) (hm : m = FKind.maximumf.neutral .f32 hφ) (hz : z = FKind.add.neutral .f32 hφ)
    (e : Fin a) (c : Fin b) :
    divf
        (exp (subf v (broadcastTo ⟨2, ![a, b]⟩ (shapeCast ⟨2, ![1, b]⟩ (multiReduction .maximumf [0] ⟨1, ![b]⟩ v m hr hφ hm) hc) hb)))
        (broadcastTo ⟨2, ![a, b]⟩ (shapeCast ⟨2, ![1, b]⟩
          (multiReduction .add [0] ⟨1, ![b]⟩
            (exp (subf v (broadcastTo ⟨2, ![a, b]⟩ (shapeCast ⟨2, ![1, b]⟩ (multiReduction .maximumf [0] ⟨1, ![b]⟩ v m hr hφ hm) hc) hb)))
            z hr hφ hz) hc) hb)
        (ix2 e c)
      = softmaxFrom (Ideal.ofBits .f32 m) (fun k => v (ix2 k c)) e := by
  have hmax : ∀ p : Fin a,
      broadcastTo ⟨2, ![a, b]⟩ (shapeCast ⟨2, ![1, b]⟩ (multiReduction .maximumf [0] ⟨1, ![b]⟩ v m hr hφ hm) hc) hb (ix2 p c)
        = (Finset.univ : Finset (Fin a)).fold max (Ideal.ofBits .f32 m) (fun k => v (ix2 k c)) :=
    fun p => (rowBroadcast_apply _ hc hb p c).trans (colMax_apply v m hr hφ hm c)
  have hexp : ∀ p : Fin a,
      exp (subf v (broadcastTo ⟨2, ![a, b]⟩ (shapeCast ⟨2, ![1, b]⟩ (multiReduction .maximumf [0] ⟨1, ![b]⟩ v m hr hφ hm) hc) hb)) (ix2 p c)
        = Ideal.exp (v (ix2 p c) - (Finset.univ : Finset (Fin a)).fold max (Ideal.ofBits .f32 m) (fun k => v (ix2 k c))) :=
    fun p => congrArg (fun t => Ideal.exp (v (ix2 p c) - t)) (hmax p)
  have hsum := (rowBroadcast_apply _ hc hb e c).trans (colSum_apply
    (exp (subf v (broadcastTo ⟨2, ![a, b]⟩ (shapeCast ⟨2, ![1, b]⟩ (multiReduction .maximumf [0] ⟨1, ![b]⟩ v m hr hφ hm) hc) hb)))
    z hr hφ hz c)
  unfold softmaxFrom
  rw [divf_apply, hexp e, hsum]
  exact congrArg _ (Finset.sum_congr rfl fun k _ => hexp k)

end Cert.LibColumnSoftmax

end
-- ==== Proof.Spec.lean ====
/-
  The router, as mathematics. For activations `x` (32768 tokens of 768 features), expert weights `w` (64 experts of
  768 features) and a bias `β` per expert:

    logit n e = (∑ k, w (e, k) · x (n, k)) + β e            the affine score of token n for expert e
    prob  n e = exp (logit n e - M n) / ∑ e', exp (logit n e' - M n),   M n = max (-∞, logit n 0, …, logit n 63)

  on the extended reals. The two results are these as [32768, 64] arrays; the kernel produces them transposed, as
  [64, 32768] arrays, and transposes at the end.
-/
import proofs.«161535_g87428354278092_cont_9to1c4b_691_25_alg».proof.Proof.LibColumnSoftmax

noncomputable section

namespace Cert.Router

open Idealize.ShloMosaic Idealize.ShloMosaic.ValueIdx Cert.LibColumnSoftmax
open scoped BigOperators

/-- The value the row maximum starts from: the f32 word of -∞. -/
abbrev negInf : EReal := Ideal.ofBits .f32 0xFF800000#32

/-- The score of token `n` for expert `e`. -/
def logit (x : FVec Ideal ⟨2, ![32768, 768]⟩ .f32) (w : FVec Ideal ⟨2, ![64, 768]⟩ .f32) (β : Fin 64 → EReal)
    (n : Fin 32768) (e : Fin 64) : EReal :=
  (∑ k : Fin 768, w (ix2 e k) * x (ix2 n k)) + β e

/-- The routing probability of expert `e` for token `n`: the softmax of the token's 64 scores. -/
def prob (x : FVec Ideal ⟨2, ![32768, 768]⟩ .f32) (w : FVec Ideal ⟨2, ![64, 768]⟩ .f32) (β : Fin 64 → EReal)
    (n : Fin 32768) (e : Fin 64) : EReal :=
  softmaxFrom negInf (logit x w β n) e

/-- The scores, tokens by experts. -/
def logits (x : FVec Ideal ⟨2, ![32768, 768]⟩ .f32) (w : FVec Ideal ⟨2, ![64, 768]⟩ .f32) (β : Fin 64 → EReal) :
    FVec Ideal ⟨2, ![32768, 64]⟩ .f32 := fun i => logit x w β (i 0) (i 1)
/-- The probabilities, tokens by experts. -/
def probs (x : FVec Ideal ⟨2, ![32768, 768]⟩ .f32) (w : FVec Ideal ⟨2, ![64, 768]⟩ .f32) (β : Fin 64 → EReal) :
    FVec Ideal ⟨2, ![32768, 64]⟩ .f32 := fun i => prob x w β (i 0) (i 1)
/-- The scores, experts by tokens. -/
def logitsT (x : FVec Ideal ⟨2, ![32768, 768]⟩ .f32) (w : FVec Ideal ⟨2, ![64, 768]⟩ .f32) (β : Fin 64 → EReal) :
    FVec Ideal ⟨2, ![64, 32768]⟩ .f32 := fun i => logit x w β (i 1) (i 0)
/-- The probabilities, experts by tokens. -/
def probsT (x : FVec Ideal ⟨2, ![32768, 768]⟩ .f32) (w : FVec Ideal ⟨2, ![64, 768]⟩ .f32) (β : Fin 64 → EReal) :
    FVec Ideal ⟨2, ![64, 32768]⟩ .f32 := fun i => prob x w β (i 1) (i 0)

/-- Transposing the experts-by-tokens scores gives the tokens-by-experts scores. -/
theorem transpose_logitsT (x : FVec Ideal ⟨2, ![32768, 768]⟩ .f32) (w : FVec Ideal ⟨2, ![64, 768]⟩ .f32) (β : Fin 64 → EReal)
    (h : (⟨2, ![64, 32768]⟩ : Shape).Transposes [1, 0] ⟨2, ![32768, 64]⟩) :
    transpose ⟨2, ![32768, 64]⟩ [1, 0] (logitsT x w β) h = logits x w β := by
  funext i
  obtain ⟨n, e, rfl⟩ : ∃ (n : Fin 32768) (e : Fin 64), i = ix2 n e := ⟨i 0, i 1, eq_ix2 i⟩
  exact transpose_ix2_apply (logitsT x w β) h n e

/-- And likewise the probabilities. -/
theorem transpose_probsT (x : FVec Ideal ⟨2, ![32768, 768]⟩ .f32) (w : FVec Ideal ⟨2, ![64, 768]⟩ .f32) (β : Fin 64 → EReal)
    (h : (⟨2, ![64, 32768]⟩ : Shape).Transposes [1, 0] ⟨2, ![32768, 64]⟩) :
    transpose ⟨2, ![32768, 64]⟩ [1, 0] (probsT x w β) h = probs x w β := by
  funext i
  obtain ⟨n, e, rfl⟩ : ∃ (n : Fin 32768) (e : Fin 64), i = ix2 n e := ⟨i 0, i 1, eq_ix2 i⟩
  exact transpose_ix2_apply (probsT x w β) h n e

end Cert.Router

end
-- ==== Proof.Body.lean ====
/-
  The kernel body's two stored values, read at one entry at the ideal values.

  The body holds a block `x0` of 4096 tokens, the weights `x1` and the bias column `x2`. What it stores first, at
  (expert e, token r of the block), is `(∑ k, x1 (e, k) · x0 (r, k)) + x2 (e, 0)`: the product of the weights with
  the block's tokens, contracted over the 768 features, plus the expert's bias. What it stores second is the softmax,
  down the 64 experts, of the first. When the block's tokens are rows `row r` of an array `X`, these are the router's
  score and probability of token `row r`.
-/
import proofs.«161535_g87428354278092_cont_9to1c4b_691_25_alg».proof.Proof.Gen.KernelIdeal.Skeleton
import proofs.«161535_g87428354278092_cont_9to1c4b_691_25_alg».proof.Proof.Spec

noncomputable section

namespace Cert.KernelIdeal.Body

open Cert.KernelIdeal Cert.KernelIdeal.Gen Cert.Router Cert.LibColumnSoftmax
open Idealize.ShloMosaic Idealize.ShloMosaic.ValueIdx
open scoped BigOperators

/-! ## The contraction's operand indices: weights (e, k), tokens (r, k) at output (e, r) -/

theorem lhs_axis0 (i : S64x4096.Idx) (q : dot_S64x768_S4096x768_S64x4096_1_1_0_0_n_n.contr.Idx) :
    (dot_S64x768_S4096x768_S64x4096_1_1_0_0_n_n.lhsIdx i q 0).val = (i 0).val := by
  unfold DotDims.lhsIdx
  rw [dif_neg (show ¬(0 : Fin S64x768.rank) ∈ dot_S64x768_S4096x768_S64x4096_1_1_0_0_n_n.lhsBatch by decide), dif_pos (show (0 : Fin S64x768.rank) ∈ dot_S64x768_S4096x768_S64x4096_1_1_0_0_n_n.lhsNonContracting by decide)]
  rfl
theorem lhs_axis1 (i : S64x4096.Idx) (q : dot_S64x768_S4096x768_S64x4096_1_1_0_0_n_n.contr.Idx) :
    (dot_S64x768_S4096x768_S64x4096_1_1_0_0_n_n.lhsIdx i q 1).val = (q ⟨0, by decide⟩).val :=
  dot_S64x768_S4096x768_S64x4096_1_1_0_0_n_n.lhsIdx_val_of_single rfl i q
theorem rhs_axis0 (i : S64x4096.Idx) (q : dot_S64x768_S4096x768_S64x4096_1_1_0_0_n_n.contr.Idx) :
    (dot_S64x768_S4096x768_S64x4096_1_1_0_0_n_n.rhsIdx i q 0).val = (i 1).val := by
  unfold DotDims.rhsIdx
  rw [dif_neg (show ¬(0 : Fin S4096x768.rank) ∈ dot_S64x768_S4096x768_S64x4096_1_1_0_0_n_n.rhsBatch by decide), dif_pos (show (0 : Fin S4096x768.rank) ∈ dot_S64x768_S4096x768_S64x4096_1_1_0_0_n_n.rhsNonContracting by decide)]
  rfl
theorem rhs_axis1 (i : S64x4096.Idx) (q : dot_S64x768_S4096x768_S64x4096_1_1_0_0_n_n.contr.Idx) :
    (dot_S64x768_S4096x768_S64x4096_1_1_0_0_n_n.rhsIdx i q 1).val = (q ⟨0, by decide⟩).val :=
  dot_S64x768_S4096x768_S64x4096_1_1_0_0_n_n.rhsIdx_val_of_single rfl i q

/-- The product into the zero accumulator, at (e, r): the sum over the features of weight times token entry. -/
theorem product_apply (w : FVec Ideal S64x768 .f32) (x : FVec Ideal S4096x768 .f32) (e : Fin 64) (r : Fin 4096) :
    matmul dot_S64x768_S4096x768_S64x4096_1_1_0_0_n_n none w x (constant (F := Ideal) S64x4096 .f32 0x00000000#32) (ix2 e r)
      = ∑ k : Fin 768, w (ix2 e k) * x (ix2 r k) := by
  simp only [matmul]
  rw [Ideal.matmul_constant_zero_apply, ← Equiv.sum_comp (contrEquiv1 dot_S64x768_S4096x768_S64x4096_1_1_0_0_n_n 768 rfl rfl).symm]
  refine Finset.sum_congr rfl fun k _ => ?_
  have hk := contrEquiv1_symm_val dot_S64x768_S4096x768_S64x4096_1_1_0_0_n_n 768 rfl rfl k
  have el : dot_S64x768_S4096x768_S64x4096_1_1_0_0_n_n.lhsIdx (ix2 e r) ((contrEquiv1 dot_S64x768_S4096x768_S64x4096_1_1_0_0_n_n 768 rfl rfl).symm k) = ix2 e k := funext fun a => Fin.ext (by
    match a with
    | ⟨0, _⟩ => exact lhs_axis0 _ _
    | ⟨1, _⟩ => exact (lhs_axis1 _ _).trans hk)
  have er : dot_S64x768_S4096x768_S64x4096_1_1_0_0_n_n.rhsIdx (ix2 e r) ((contrEquiv1 dot_S64x768_S4096x768_S64x4096_1_1_0_0_n_n 768 rfl rfl).symm k) = ix2 r k := funext fun a => Fin.ext (by
    match a with
    | ⟨0, _⟩ => exact rhs_axis0 _ _
    | ⟨1, _⟩ => exact (rhs_axis1 _ _).trans hk)
  rw [el, er]

/-! ## The two stored values -/

/-- The first stored value at (e, r): the contraction plus the expert's bias. -/
theorem scores_apply (x0 : Vec Ideal S4096x768 .f32) (x1 : Vec Ideal S64x768 .f32) (x2 : Vec Ideal S64x1 .f32)
    (e : Fin 64) (r : Fin 4096) :
    k0_pay1 (F := Ideal) x0 x1 x2 (ix2 e r) = (∑ k : Fin 768, x1 (ix2 e k) * x0 (ix2 r k)) + x2 (ix2 e (0 : Fin 1)) := by
  unfold k0_pay1
  show matmul dot_S64x768_S4096x768_S64x4096_1_1_0_0_n_n none x1 x0 (constant (F := Ideal) S64x4096 .f32 0x00000000#32) (ix2 e r)
      + broadcastTo S64x4096 (shapeCast S64x1 x2 shapeCasts_S64x1_S64x1) broadcasts_S64x1_S64x4096 (ix2 e r) = _
  rw [product_apply x1 x0 e r, colBroadcast_apply _ broadcasts_S64x1_S64x4096 e r, shapeCast_self]

/-- The second stored value at (e, r): the softmax down the experts of the first. -/
theorem softmax_apply (x0 : Vec Ideal S4096x768 .f32) (x1 : Vec Ideal S64x768 .f32) (x2 : Vec Ideal S64x1 .f32)
    (e : Fin 64) (r : Fin 4096) :
    k0_pay2 (F := Ideal) x0 x1 x2 (ix2 e r)
      = softmaxFrom negInf (fun e' => k0_pay1 (F := Ideal) x0 x1 x2 (ix2 e' r)) e := by
  unfold k0_pay2
  exact colSoftmax_apply (k0_pay1 (F := Ideal) x0 x1 x2) 0xFF800000#32 0x00000000#32 reduces_S64x4096_S4096
    shapeCasts_S4096_S1x4096 broadcasts_S1x4096_S64x4096 (.inl rfl) rfl rfl e r

/-! ## Over a block of an array -/

/-- When the block's token `r` is row `row r` of `X`, its weights are `W` and its bias column is `β`, the first stored
    value at (e, r) is the router's score of token `row r` for expert `e`. -/
theorem scores_eq (x0 : Vec Ideal S4096x768 .f32) (x1 : Vec Ideal S64x768 .f32) (x2 : Vec Ideal S64x1 .f32)
    (X : FVec Ideal ⟨2, ![32768, 768]⟩ .f32) (W : FVec Ideal ⟨2, ![64, 768]⟩ .f32) (β : Fin 64 → EReal) (row : Fin 4096 → Fin 32768)
    (h0 : ∀ (r : Fin 4096) (k : Fin 768), x0 (ix2 r k) = X (ix2 (row r) k))
    (h1 : ∀ (e : Fin 64) (k : Fin 768), x1 (ix2 e k) = W (ix2 e k))
    (h2 : ∀ e : Fin 64, x2 (ix2 e (0 : Fin 1)) = β e) (e : Fin 64) (r : Fin 4096) :
    k0_pay1 (F := Ideal) x0 x1 x2 (ix2 e r) = logit X W β (row r) e := by
  rw [scores_apply, h2 e]
  unfold logit
  exact congrArg (· + β e) (Finset.sum_congr rfl fun k _ => by rw [h1 e k, h0 r k])

/-- And the second is its routing probability. -/
theorem softmax_eq (x0 : Vec Ideal S4096x768 .f32) (x1 : Vec Ideal S64x768 .f32) (x2 : Vec Ideal S64x1 .f32)
    (X : FVec Ideal ⟨2, ![32768, 768]⟩ .f32) (W : FVec Ideal ⟨2, ![64, 768]⟩ .f32) (β : Fin 64 → EReal) (row : Fin 4096 → Fin 32768)
    (h0 : ∀ (r : Fin 4096) (k : Fin 768), x0 (ix2 r k) = X (ix2 (row r) k))
    (h1 : ∀ (e : Fin 64) (k : Fin 768), x1 (ix2 e k) = W (ix2 e k))
    (h2 : ∀ e : Fin 64, x2 (ix2 e (0 : Fin 1)) = β e) (e : Fin 64) (r : Fin 4096) :
    k0_pay2 (F := Ideal) x0 x1 x2 (ix2 e r) = prob X W β (row r) e := by
  rw [softmax_apply]
  unfold prob
  exact congrArg (fun l => softmaxFrom negInf l e) (funext fun e' => scores_eq x0 x1 x2 X W β row h0 h1 h2 e' r)

end Cert.KernelIdeal.Body

end
-- ==== Proof.KernelValue.lean ====
/-
  What the idealized kernel's program leaves in its two results.

  The grid has eight points; point `t` holds tokens `4096 t … 4096 t + 4095` (rows of the activations), all the
  weights and the whole bias column, and writes back columns `4096 t … 4096 t + 4095` of the two experts-by-tokens
  arrays. So what point `t` writes back is its block of the experts-by-tokens scores and probabilities, the eight
  blocks tile each array, and each array ends as the scores, resp. the probabilities, of every token. The two
  transposes after the region turn them into the tokens-by-experts results. The bias column the region finds is
  the bias vector reshaped, so its entry in row `e` is the bias of expert `e`.
-/
import proofs.«161535_g87428354278092_cont_9to1c4b_691_25_alg».proof.Proof.Gen.KernelIdeal.Frame
import proofs.«161535_g87428354278092_cont_9to1c4b_691_25_alg».proof.Proof.Body
import Idealize.ShloMosaic.Lib.Pipeline.Value
import Idealize.ShloMosaic.Lib.StableHlo.Run
import Idealize.ShloMosaic.Lib.Tactic

set_option maxRecDepth 16384

noncomputable section

namespace Cert.KernelIdeal.RouterValue

open Cert.KernelIdeal Cert.KernelIdeal.Gen Cert.Router Cert.LibColumnSoftmax
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## Names for the blocks and the arrays, at their literal types -/

abbrev xblk (c : Dev nD) (t : Fin cfg0.N) : Vec Ideal S4096x768 .f32 := iblk m c 0 t
abbrev wblk (c : Dev nD) (t : Fin cfg0.N) : Vec Ideal S64x768 .f32 := iblk m c 1 t
abbrev bblk (c : Dev nD) (t : Fin cfg0.N) : Vec Ideal S64x1 .f32 := iblk m c 2 t
abbrev xarr (c : Dev nD) : Vec Ideal S32768x768 .f32 := V m c main_arg0
abbrev warr (c : Dev nD) : Vec Ideal S64x768 .f32 := V m c main_arg1
abbrev barr (c : Dev nD) : Vec Ideal S64x1 .f32 := V m c main_v0
/-- The bias of each expert, as the region finds it: the bias column's entry in the expert's row. -/
abbrev bias (c : Dev nD) : Fin 64 → EReal := fun e => barr m c (ix2 e (0 : Fin 1))

theorem hz : (![0, 0] : Fin 2 → Nat) = fun _ => 0 := funext fun a => by fin_cases a <;> rfl

/-- The row of the activations that token `r` of point `t`'s block is. -/
def row (t : Fin cfg0.N) (r : Fin 4096) : Fin 32768 :=
  ⟨t.val * 4096 + r.val, by have := t.isLt; have hN : cfg0.N = 8 := N_0; have := r.isLt; omega⟩

/-- The block index of each window at each point: the tokens' window and the two results' move with the point,
    the weights' and the bias's stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = t.val
    ∧ win0_4.index t (0 : Fin 2) = 0 ∧ win0_4.index t (1 : Fin 2) = t.val :=
  (by decide +kernel : ∀ t : Fin grid0.N, _)

/-! ## The input blocks as entries of the arrays -/

theorem xblk_apply (c : Dev nD) (t : Fin cfg0.N) (r : Fin 4096) (k : Fin 768) :
    xblk m c t (ix2 r k) = xarr m c (ix2 (row t r) k) := by
  obtain ⟨h0, h1, -⟩ := idx_facts t
  show iblk m c 0 t (ix2 r k) = V m c main_arg0 (ix2 (row t r) k)
  unfold iblk
  rw [View.read_apply]
  refine congrArg (V m c main_arg0) (funext fun a => Fin.ext ?_)
  match a with
  | ⟨0, _⟩ => show win0_0.index t (0 : Fin 2) * 4096 + 1 * r.val = t.val * 4096 + r.val; rw [h0]; omega
  | ⟨1, _⟩ => show win0_0.index t (1 : Fin 2) * 768 + 1 * k.val = k.val; rw [h1]; omega

theorem wblk_apply (c : Dev nD) (t : Fin cfg0.N) (e : Fin 64) (k : Fin 768) :
    wblk m c t (ix2 e k) = warr m c (ix2 e k) := by
  obtain ⟨-, -, h0, h1, -⟩ := idx_facts t
  show iblk m c 1 t (ix2 e k) = V m c main_arg1 (ix2 e k)
  unfold iblk
  rw [View.read_apply]
  refine congrArg (V m c main_arg1) (funext fun a => Fin.ext ?_)
  match a with
  | ⟨0, _⟩ => show win0_1.index t (0 : Fin 2) * 64 + 1 * e.val = e.val; rw [h0]; omega
  | ⟨1, _⟩ => show win0_1.index t (1 : Fin 2) * 768 + 1 * k.val = k.val; rw [h1]; omega

theorem bblk_apply (c : Dev nD) (t : Fin cfg0.N) (e : Fin 64) :
    bblk m c t (ix2 e (0 : Fin 1)) = bias m c e := by
  obtain ⟨-, -, -, -, h0, h1, -⟩ := idx_facts t
  show iblk m c 2 t (ix2 e (0 : Fin 1)) = V m c main_v0 (ix2 e (0 : Fin 1))
  unfold iblk
  rw [View.read_apply]
  refine congrArg (V m c main_v0) (funext fun a => Fin.ext ?_)
  match a with
  | ⟨0, _⟩ => show win0_2.index t (0 : Fin 2) * 64 + 1 * e.val = e.val; rw [h0]; omega
  | ⟨1, _⟩ => show win0_2.index t (1 : Fin 2) * 1 + 1 * 0 = 0; rw [h1]

/-! ## What point `t` computes, entry by entry -/

/-- The entry of the experts-by-tokens arrays that entry `y` of point `t`'s output block is. -/
def outIdx (t : Fin cfg0.N) (y : S64x4096.Idx) : S64x32768.Idx :=
  ix2 (⟨(y 0).val, (y 0).isLt⟩ : Fin 64) (row t ⟨(y 1).val, (y 1).isLt⟩)

theorem scores_block (c : Dev nD) (t : Fin cfg0.N) (y : S64x4096.Idx) :
    k0_pay1 (F := Ideal) (xblk m c t) (wblk m c t) (bblk m c t) y
      = logitsT (xarr m c) (warr m c) (bias m c) (outIdx t y) := by
  obtain ⟨e, r, rfl⟩ : ∃ (e : Fin 64) (r : Fin 4096), y = ix2 e r := ⟨y 0, y 1, eq_ix2 y⟩
  exact Body.scores_eq (xblk m c t) (wblk m c t) (bblk m c t) (xarr m c) (warr m c) (bias m c) (row t)
    (xblk_apply m c t) (wblk_apply m c t) (bblk_apply m c t) e r

theorem probs_block (c : Dev nD) (t : Fin cfg0.N) (y : S64x4096.Idx) :
    k0_pay2 (F := Ideal) (xblk m c t) (wblk m c t) (bblk m c t) y
      = probsT (xarr m c) (warr m c) (bias m c) (outIdx t y) := by
  obtain ⟨e, r, rfl⟩ : ∃ (e : Fin 64) (r : Fin 4096), y = ix2 e r := ⟨y 0, y 1, eq_ix2 y⟩
  exact Body.softmax_eq (xblk m c t) (wblk m c t) (bblk m c t) (xarr m c) (warr m c) (bias m c) (row t)
    (xblk_apply m c t) (wblk_apply m c t) (bblk_apply m c t) e r

/-! ## What point `t` writes back is its block of the experts-by-tokens arrays -/

/-- Entry `y` of point `t`'s output block sits at `outIdx t y` of the array, for either result (their windows move alike). -/
theorem emb3_eq (t : Fin cfg0.N) (j : ((cfg0.win 3).xblock (cfg0.grid.coords t)).Idx) :
    ((cfg0.win 3).blk t).view.emb j = outIdx t j := by
  obtain ⟨-, -, -, -, -, -, h0, h1, -⟩ := idx_facts t
  funext a; apply Fin.ext
  match a with
  | ⟨0, _⟩ => show win0_3.index t (0 : Fin 2) * 64 + 1 * (j 0).val = (j 0).val; rw [h0]; omega
  | ⟨1, _⟩ => show win0_3.index t (1 : Fin 2) * 4096 + 1 * (j 1).val = t.val * 4096 + (j 1).val; rw [h1]; omega

theorem emb4_eq (t : Fin cfg0.N) (j : ((cfg0.win 4).xblock (cfg0.grid.coords t)).Idx) :
    ((cfg0.win 4).blk t).view.emb j = outIdx t j := by
  obtain ⟨-, -, -, -, -, -, -, -, h0, h1⟩ := idx_facts t
  funext a; apply Fin.ext
  match a with
  | ⟨0, _⟩ => show win0_4.index t (0 : Fin 2) * 64 + 1 * (j 0).val = (j 0).val; rw [h0]; omega
  | ⟨1, _⟩ => show win0_4.index t (1 : Fin 2) * 4096 + 1 * (j 1).val = t.val * 4096 + (j 1).val; rw [h1]; omega

/-- The scores' write-back at point `t`. -/
theorem flushed3_eq (c : Dev nD) (t : Fin cfg0.N) :
    (dats m 0 c).flushed 3 t
      = ((cfg0.win 3).blk t).view.read (Elt Ideal) (logitsT (xarr m c) (warr m c) (bias m c)) := by
  show (cfg0.win 3).cut (grid0.coords t) ((dats m 0 c).after 3 t) = _
  rw [after0_3]
  unfold out0_3
  rw [View.canon_unit_zero hz]
  simp only [View.ld_unit_zero (S := S4096x768) hz, View.ld_unit_zero (S := S64x768) hz, View.ld_unit_zero (S := S64x1) hz]
  funext j
  rw [View.read_apply, emb3_eq]
  exact scores_block m c t j

/-- The probabilities' write-back at point `t`. -/
theorem flushed4_eq (c : Dev nD) (t : Fin cfg0.N) :
    (dats m 0 c).flushed 4 t
      = ((cfg0.win 4).blk t).view.read (Elt Ideal) (probsT (xarr m c) (warr m c) (bias m c)) := by
  show (cfg0.win 4).cut (grid0.coords t) ((dats m 0 c).after 4 t) = _
  rw [after0_4]
  unfold out0_4
  rw [View.canon_unit_zero hz]
  simp only [View.ld_unit_zero (S := S4096x768) hz, View.ld_unit_zero (S := S64x768) hz, View.ld_unit_zero (S := S64x1) hz]
  funext j
  rw [View.read_apply, emb4_eq]
  exact probs_block m c t j

/-! ## The eight blocks tile each array -/

theorem mem_blk3 (t : Fin cfg0.N) (i : S64x32768.Idx) :
    i ∈ ((cfg0.win 3).blk t).view.set ↔ ∀ a : Fin 2, win0_3.index t a * S64x4096.size a ≤ (i a).val ∧ (i a).val < win0_3.index t a * S64x4096.size a + S64x4096.size a := by
  show i ∈ ((View.whole main_v1_0).slice (win0_3.rect t)).set ↔ _
  rw [View.set_slice_whole, Rect.mem_set_unit]
  exact Iff.rfl

theorem mem_blk4 (t : Fin cfg0.N) (i : S64x32768.Idx) :
    i ∈ ((cfg0.win 4).blk t).view.set ↔ ∀ a : Fin 2, win0_4.index t a * S64x4096.size a ≤ (i a).val ∧ (i a).val < win0_4.index t a * S64x4096.size a + S64x4096.size a := by
  show i ∈ ((View.whole main_v1_1).slice (win0_4.rect t)).set ↔ _
  rw [View.set_slice_whole, Rect.mem_set_unit]
  exact Iff.rfl

/-- The point whose block holds column `n`: `n / 4096`. -/
def pointOf (i : S64x32768.Idx) : Fin cfg0.N :=
  ⟨(i 1).val / 4096, by have hN : cfg0.N = 8 := N_0; have : (i 1).val < 32768 := (i 1).isLt; omega⟩

theorem cover3 (i : S64x32768.Idx) : ∃ t : Fin cfg0.N, (cfg0.win 3).flush t = true ∧ i ∈ ((cfg0.win 3).blk t).view.set := by
  refine ⟨pointOf i, flush0_3 _, ?_⟩
  obtain ⟨-, -, -, -, -, -, h0, h1, -⟩ := idx_facts (pointOf i)
  have hi0 : (i 0).val < 64 := (i 0).isLt
  have hi1 : (i 1).val < 32768 := (i 1).isLt
  have hp : (pointOf i).val = (i 1).val / 4096 := rfl
  rw [mem_blk3]
  intro a
  match a with
  | ⟨0, _⟩ => show win0_3.index (pointOf i) (0 : Fin 2) * 64 ≤ (i 0).val ∧ (i 0).val < win0_3.index (pointOf i) (0 : Fin 2) * 64 + 64; rw [h0]; omega
  | ⟨1, _⟩ => show win0_3.index (pointOf i) (1 : Fin 2) * 4096 ≤ (i 1).val ∧ (i 1).val < win0_3.index (pointOf i) (1 : Fin 2) * 4096 + 4096; rw [h1, hp]; omega

theorem cover4 (i : S64x32768.Idx) : ∃ t : Fin cfg0.N, (cfg0.win 4).flush t = true ∧ i ∈ ((cfg0.win 4).blk t).view.set := by
  refine ⟨pointOf i, flush0_4 _, ?_⟩
  obtain ⟨-, -, -, -, -, -, -, -, h0, h1⟩ := idx_facts (pointOf i)
  have hi0 : (i 0).val < 64 := (i 0).isLt
  have hi1 : (i 1).val < 32768 := (i 1).isLt
  have hp : (pointOf i).val = (i 1).val / 4096 := rfl
  rw [mem_blk4]
  intro a
  match a with
  | ⟨0, _⟩ => show win0_4.index (pointOf i) (0 : Fin 2) * 64 ≤ (i 0).val ∧ (i 0).val < win0_4.index (pointOf i) (0 : Fin 2) * 64 + 64; rw [h0]; omega
  | ⟨1, _⟩ => show win0_4.index (pointOf i) (1 : Fin 2) * 4096 ≤ (i 1).val ∧ (i 1).val < win0_4.index (pointOf i) (1 : Fin 2) * 4096 + 4096; rw [h1, hp]; omega

/-- The scores' array after the region: the experts-by-tokens scores. -/
theorem final3 (c : Dev nD) : (dats m 0 c).arrAt 3 cfg0.N = logitsT (xarr m c) (warr m c) (bias m c) :=
  (dats m 0 c).arrAt_eq_of_cover 3 _ (fun t _ => flushed3_eq m c t) cover3

/-- The probabilities' array after the region: the experts-by-tokens probabilities. -/
theorem final4 (c : Dev nD) : (dats m 0 c).arrAt 4 cfg0.N = probsT (xarr m c) (warr m c) (bias m c) :=
  (dats m 0 c).arrAt_eq_of_cover 4 _ (fun t _ => flushed4_eq m c t) cover4

/-! ## Around the region -/

/-- The activations and the weights reach the region as launched. -/
theorem xarr_eq (c : Dev nD) : xarr m c = m ((c : Thread nD τ).loc main_arg0) := V_main_arg0 m c
theorem warr_eq (c : Dev nD) : warr m c = m ((c : Thread nD τ).loc main_arg1) := V_main_arg1 m c

/-- The bias column the region finds is the bias vector reshaped to one column … -/
theorem barr_eq (c : Dev nD) :
    barr m c = shapeCast S64x1 (m ((c : Thread nD τ).loc main_arg2)) shapeCasts_S64_S64x1 := by
  show StableHlo.after hostOps0 (fun b => m (c, b)) (Proc.devRef .tc main_v0) = _
  after_results
  rfl

/-- … so the bias of expert `e` is the vector's entry `e`. -/
theorem bias_eq (c : Dev nD) : bias m c = fun e => (m ((c : Thread nD τ).loc main_arg2) : S64.Idx → EReal) (ix1 e) := by
  funext e
  show barr m c (ix2 e (0 : Fin 1)) = _
  rw [barr_eq]
  exact shapeCast_apply _ shapeCasts_S64_S64x1 (ix2 e (0 : Fin 1)) (ix1 e) (by
    rw [Shape.rowMajor_val_one, Shape.rowMajor_val_two]
    show e.val = e.val * 1 + 0
    omega)

/-- The first result after the program: the scores' array transposed. -/
theorem tail_scores (c : Dev nD) :
    Pipeline.afterTail₀ cfgs (dats m) 0 (V0 m) [hostOps1] c main_v2
      = transpose S32768x64 [1, 0] ((dats m 0 c).arrAt 3 cfg0.N) transposes_S64x32768_S32768x64_1_0 := by
  unfold Pipeline.afterTail₀
  show StableHlo.after hostOps1 _ (Proc.devRef .tc main_v2) = _
  after_results
  exact congrArg (fun v => transpose S32768x64 [1, 0] v transposes_S64x32768_S32768x64_1_0)
    (Pipeline.withArrays_arr spec0 launch0.win.arr_inj c _ _ 3)

/-- The second result after the program: the probabilities' array transposed. -/
theorem tail_probs (c : Dev nD) :
    Pipeline.afterTail₀ cfgs (dats m) 0 (V0 m) [hostOps1] c main_v3
      = transpose S32768x64 [1, 0] ((dats m 0 c).arrAt 4 cfg0.N) transposes_S64x32768_S32768x64_1_0 := by
  unfold Pipeline.afterTail₀
  show StableHlo.after hostOps1 _ (Proc.devRef .tc main_v3) = _
  after_results
  exact congrArg (fun v => transpose S32768x64 [1, 0] v transposes_S64x32768_S32768x64_1_0)
    (Pipeline.withArrays_arr spec0 launch0.win.arr_inj c _ _ 4)

/-- The first result is the router's scores of the launched arrays. -/
theorem result_scores (c : Dev nD) :
    Pipeline.afterTail₀ cfgs (dats m) 0 (V0 m) [hostOps1] c main_v2
      = logits (m ((c : Thread nD τ).loc main_arg0)) (m ((c : Thread nD τ).loc main_arg1))
          (fun e => (m ((c : Thread nD τ).loc main_arg2) : S64.Idx → EReal) (ix1 e)) := by
  rw [tail_scores, final3, transpose_logitsT, xarr_eq, warr_eq, bias_eq]

/-- The second result is the router's probabilities of the launched arrays. -/
theorem result_probs (c : Dev nD) :
    Pipeline.afterTail₀ cfgs (dats m) 0 (V0 m) [hostOps1] c main_v3
      = probs (m ((c : Thread nD τ).loc main_arg0)) (m ((c : Thread nD τ).loc main_arg1))
          (fun e => (m ((c : Thread nD τ).loc main_arg2) : S64.Idx → EReal) (ix1 e)) := by
  rw [tail_probs, final4, transpose_probsT, xarr_eq, warr_eq, bias_eq]

/-! ## The run -/

/-- Every weakly fair execution of the idealized kernel's program ends with its two results at the router's scores and
    probabilities of the launched arrays, the three arguments unchanged. -/
theorem run : θ_run defs (onTc (τ := τ) (main (F := Ideal))) ⟨m, fun _ => 0, ρ⟩ fun r => ∀ c : Dev nD,
      r.2.mem ((c.tc : Thread nD τ).loc main_v2)
        = logits (m ((c : Thread nD τ).loc main_arg0)) (m ((c : Thread nD τ).loc main_arg1))
            (fun e => (m ((c : Thread nD τ).loc main_arg2) : S64.Idx → EReal) (ix1 e))
      ∧ r.2.mem ((c.tc : Thread nD τ).loc main_v3)
        = probs (m ((c : Thread nD τ).loc main_arg0)) (m ((c : Thread nD τ).loc main_arg1))
            (fun e => (m ((c : Thread nD τ).loc main_arg2) : S64.Idx → EReal) (ix1 e))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v2 (Pipeline.mem_restRefs_of main_v2 (by decide) (by decide))).trans (result_scores m c),
      ((h c).2 main_v3 (Pipeline.mem_restRefs_of main_v3 (by decide) (by decide))).trans (result_probs m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.RouterValue

end
-- ==== Proof.RefValue.lean ====
/-
  The reference at the ideal values, read entry by entry.

  Its first result, at (token n, expert e), is `∑ k, x (n, k) · w (e, k)` — the activations times the transposed
  weights — plus the bias of `e`: the router's score, the factors of each product in the other order. Its second
  result is the softmax of each token's scores, spelled out: the maximum over the experts from -∞, taken once
  more against -∞ (which changes nothing), subtracted; the exponential; its sum over the experts from zero; the
  quotient. So the two results are the router's scores and probabilities.
-/
import proofs.«161535_g87428354278092_cont_9to1c4b_691_25_alg».proof.Proof.Gen.ReferenceIdeal.Run
import proofs.«161535_g87428354278092_cont_9to1c4b_691_25_alg».proof.Proof.Gen.ReferenceIdeal.Read
import proofs.«161535_g87428354278092_cont_9to1c4b_691_25_alg».proof.Proof.Spec

noncomputable section

namespace Cert.ReferenceIdeal.RouterValue

open Cert.ReferenceIdeal Cert.ReferenceIdeal.Gen Cert.ReferenceIdeal.Read Cert.Router Cert.LibColumnSoftmax
open Idealize.ShloMosaic Idealize.ShloMosaic.ValueIdx
open scoped BigOperators

variable (x0 : (⟨S32768x768, .f32⟩ : BufTy).Contents (Elt Ideal)) (x1 : (⟨S64x768, .f32⟩ : BufTy).Contents (Elt Ideal))
  (x2 : (⟨S64, .f32⟩ : BufTy).Contents (Elt Ideal))

/-- The bias of each expert: the bias vector's entry. -/
abbrev bias : Fin 64 → EReal := fun e => x2 (ix1 e)

/-! ## The indices the stages read, at coordinates -/

theorem lidx_eq (n : Fin 32768) (e : Fin 64) (k : Fin 768) : lidx_main_v1 (ix2 n e) k = ix2 n k :=
  funext fun a => Fin.ext (by match a with | ⟨0, _⟩ => rfl | ⟨1, _⟩ => rfl)
theorem ridx_eq (n : Fin 32768) (e : Fin 64) (k : Fin 768) : idx_main_v0 (ridx_main_v1 (ix2 n e) k) = ix2 e k :=
  funext fun a => Fin.ext (by match a with | ⟨0, _⟩ => rfl | ⟨1, _⟩ => rfl)
theorem bidx_eq (n : Fin 32768) (e : Fin 64) : idx_main_v2 (idx_main_v3 (ix2 n e)) = ix1 e :=
  funext fun a => Fin.ext (by match a with | ⟨0, _⟩ => rfl)
theorem midx_eq (n : Fin 32768) (e : Fin 64) : idx_main_v8 (idx_main_v9 (ix2 n e)) = ix1 n :=
  funext fun a => Fin.ext (by match a with | ⟨0, _⟩ => rfl)
theorem sidx_eq (n : Fin 32768) (e : Fin 64) : idx_main_v13 (idx_main_v14 (ix2 n e)) = ix1 n :=
  funext fun a => Fin.ext (by match a with | ⟨0, _⟩ => rfl)
theorem eidx_eq (n : Fin 32768) (k : Fin 64) : idx_main_v12 (ix1 n) k = ix2 n k :=
  funext fun a => Fin.ext (by match a with | ⟨0, _⟩ => rfl | ⟨1, _⟩ => rfl)

/-! ## The stages -/

/-- The first result at (n, e) is the router's score. -/
theorem score_apply (n : Fin 32768) (e : Fin 64) :
    val_main_v4 (F := Ideal) x0 x1 x2 (ix2 n e) = logit x0 x1 (bias x2) n e := by
  rw [val_main_v4_apply, val_main_v1_apply, val_main_v3_apply, val_main_v2_apply, bidx_eq]
  unfold logit
  refine congrArg (· + x2 (ix1 e)) (Finset.sum_congr rfl fun k _ => ?_)
  rw [val_main_v0_apply, lidx_eq, ridx_eq]
  exact mul_comm _ _

/-- The maximum of a token's scores over the experts, from -∞. -/
theorem reduceMax_apply (n : Fin 32768) :
    val_main_v5 (F := Ideal) x0 x1 x2 (ix1 n)
      = (Finset.univ : Finset (Fin 64)).fold max negInf (logit x0 x1 (bias x2) n) := by
  have hR : S32768x64.Reduces [1] S32768 := by decide
  have hfold := Host.reduce_eq_fold_single (FloatOps.maximumf (F := Ideal) (φ := .f32)) (val_main_v4 (F := Ideal) x0 x1 x2)
    (val_main_cst (F := Ideal)) reducesTo_S32768x64_S32768_d1 hR h_S_ (ix1 n)
  unfold val_main_v5
  refine hfold.trans ?_
  show (Finset.univ : Finset (Fin 64)).fold max negInf
      (fun k => val_main_v4 (F := Ideal) x0 x1 x2 (hR.lift (ix1 n) k)) = _
  refine congrArg (fun g : Fin 64 → EReal => (Finset.univ : Finset (Fin 64)).fold max negInf g) (funext fun k => ?_)
  refine Eq.trans (congrArg (val_main_v4 (F := Ideal) x0 x1 x2) ?_) (score_apply x0 x1 x2 n k)
  exact funext fun a => Fin.ext (by match a with | ⟨0, _⟩ => rfl | ⟨1, _⟩ => rfl)

/-- Taken once more against -∞ it is the same maximum. -/
theorem rowMax_apply (n : Fin 32768) :
    val_main_v7 (F := Ideal) x0 x1 x2 (ix1 n)
      = (Finset.univ : Finset (Fin 64)).fold max negInf (logit x0 x1 (bias x2) n) := by
  rw [val_main_v7_apply, val_main_v6_apply, val_main_cst_0_apply, reduceMax_apply]
  exact max_fold_max_init _ negInf _

/-- The exponential of a score less its token's maximum. -/
theorem exp_apply (n : Fin 32768) (e : Fin 64) :
    val_main_v11 (F := Ideal) x0 x1 x2 (ix2 n e)
      = Ideal.exp (logit x0 x1 (bias x2) n e - (Finset.univ : Finset (Fin 64)).fold max negInf (logit x0 x1 (bias x2) n)) := by
  rw [val_main_v11_apply, val_main_v10_apply, val_main_v9_apply, val_main_v8_apply, midx_eq, rowMax_apply, score_apply]
  rfl

/-- Their sum over the experts, from zero. -/
theorem sum_apply (n : Fin 32768) :
    val_main_v12 (F := Ideal) x0 x1 x2 (ix1 n)
      = ∑ e' : Fin 64, Ideal.exp (logit x0 x1 (bias x2) n e' - (Finset.univ : Finset (Fin 64)).fold max negInf (logit x0 x1 (bias x2) n)) := by
  rw [val_main_v12_apply, val_main_cst_1_apply]
  show Ideal.ofBits .f32 0x00000000#32 + _ = _
  rw [Ideal.ofBits_zero_f32, zero_add]
  exact Finset.sum_congr rfl fun k _ => by rw [eidx_eq, exp_apply]

/-- The second result at (n, e) is the router's probability. -/
theorem prob_apply (n : Fin 32768) (e : Fin 64) :
    val_main_v15 (F := Ideal) x0 x1 x2 (ix2 n e) = prob x0 x1 (bias x2) n e := by
  rw [val_main_v15_apply, val_main_v14_apply, val_main_v13_apply, sidx_eq, sum_apply, exp_apply]
  rfl

/-! ## The two results as arrays -/

theorem scores_eq : val_main_v4 (F := Ideal) x0 x1 x2 = logits x0 x1 (bias x2) := by
  funext i
  obtain ⟨n, e, rfl⟩ : ∃ (n : Fin 32768) (e : Fin 64), i = ix2 n e := ⟨i 0, i 1, eq_ix2 i⟩
  exact score_apply x0 x1 x2 n e

theorem probs_eq : val_main_v15 (F := Ideal) x0 x1 x2 = probs x0 x1 (bias x2) := by
  funext i
  obtain ⟨n, e, rfl⟩ : ∃ (n : Fin 32768) (e : Fin 64), i = ix2 n e := ⟨i 0, i 1, eq_ix2 i⟩
  exact prob_apply x0 x1 x2 n e

end Cert.ReferenceIdeal.RouterValue

end
-- ==== Proof.lean ====
/-
  A mixture-of-experts router: for 32768 tokens of 768 features, 64 experts with weights `w` and biases `b`,

    logits (n, e) = (∑ k, x (n, k) · w (e, k)) + b e,        probs (n, ·) = softmax (logits (n, ·)).

  The kernel computes both in the transposed orientation, 4096 tokens at a time: the weights times the block's tokens
  (contracted over the features) plus a bias column, then the softmax down the 64 experts — the maximum from -∞, the
  exponential of the difference, its sum from zero, the quotient —, and transposes the two experts-by-tokens arrays
  at the end. The reference multiplies the activations by the transposed weights, adds the bias row, and takes
  the softmax along the experts. At the ideal values both are the same two functions of the inputs, entry by
  entry: the products commute, the two softmaxes are the same formula, and the reference's extra maximum against -∞
  changes nothing. No law used needs the inputs finite.

  The three frames: the two kernel programs' by their frame certificates, the reference's by its run with the results
  dropped. The idealization rewrote nothing, so there is nothing to preserve.
-/
import proofs.«161535_g87428354278092_cont_9to1c4b_691_25_alg».proof.Defs
import proofs.«161535_g87428354278092_cont_9to1c4b_691_25_alg».proof.Proof.Gen.Kernel
import proofs.«161535_g87428354278092_cont_9to1c4b_691_25_alg».proof.Proof.Gen.Kernel.Frame
import proofs.«161535_g87428354278092_cont_9to1c4b_691_25_alg».proof.Proof.Gen.KernelIdeal
import proofs.«161535_g87428354278092_cont_9to1c4b_691_25_alg».proof.Proof.Gen.KernelIdeal.Frame
import proofs.«161535_g87428354278092_cont_9to1c4b_691_25_alg».proof.Proof.Gen.ReferenceIdeal
import proofs.«161535_g87428354278092_cont_9to1c4b_691_25_alg».proof.Proof.Gen.ReferenceIdeal.Run
import proofs.«161535_g87428354278092_cont_9to1c4b_691_25_alg».proof.Proof.Gen.ReferenceIdeal.Read
import proofs.«161535_g87428354278092_cont_9to1c4b_691_25_alg».proof.Proof.Gen.Pre_finite_inputs
import proofs.«161535_g87428354278092_cont_9to1c4b_691_25_alg».proof.Proof.KernelValue
import proofs.«161535_g87428354278092_cont_9to1c4b_691_25_alg».proof.Proof.RefValue
import Idealize.ShloMosaic.Adequacy
import Idealize.ShloMosaic.Init

noncomputable section

namespace Cert.Proof

open Idealize.ShloMosaic Idealize.ShloMosaic.ValueIdx Idealize.SL.Sem Cert.Router

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both programs end with the router's scores and probabilities of the (agreeing) inputs. -/
theorem algebraic : Cert.algebraic_KernelIdeal_ReferenceIdeal := by
  intro m ρ m' ρ' _ hagree
  refine ⟨fun c => logits (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (fun e => (m ((c.tc : Thread Cert.KernelIdeal.nD Cert.KernelIdeal.τ).loc Cert.KernelIdeal.main_arg2) : Cert.KernelIdeal.S64.Idx → EReal) (ix1 e)),
    fun c => probs (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (fun e => (m ((c.tc : Thread Cert.KernelIdeal.nD Cert.KernelIdeal.τ).loc Cert.KernelIdeal.main_arg2) : Cert.KernelIdeal.S64.Idx → EReal) (ix1 e)),
    Cert.KernelIdeal.RouterValue.run m ρ, ?_⟩
  refine (θ_run Cert.ReferenceIdeal.defs _ _).mono (fun _ h c => ?_) (Cert.ReferenceIdeal.Value.run (F := Ideal) m' ρ')
  obtain ⟨h4, h15, ha0, ha1, ha2⟩ := h c
  refine ⟨h4.trans ?_, h15.trans ?_, ha0, ha1, ha2⟩
  · rw [(hagree c).1, (hagree c).2.1, (hagree c).2.2]
    exact (Cert.ReferenceIdeal.Read.val_main_v4_eq _ _ _).trans (Cert.ReferenceIdeal.RouterValue.scores_eq _ _ _)
  · rw [(hagree c).1, (hagree c).2.1, (hagree c).2.2]
    exact (Cert.ReferenceIdeal.Read.val_main_v15_eq _ _ _).trans (Cert.ReferenceIdeal.RouterValue.probs_eq _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
